-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S64x10 .f32) (main_arg7 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x64 .f32) (main_arg5 : FVec F S64 .f32) (main_arg6 : FVec F S64x10 .f32) (main_arg7 : FVec F S10 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x500 : Shape := ⟨2, ![2000, 500]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S1x10 : Shape := ⟨2, ![1, 10]⟩
abbrev S100000x10 : Shape := ⟨2, ![100000, 10]⟩
abbrev S2000x10 : Shape := ⟨2, ![2000, 10]⟩

abbrev nBuf : Space → Nat
  | .hbm => 89
  | .vmem => 34
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S1x10, .f32⟩
  | .hbm, ⟨88, _⟩ => ⟨S100000x10, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x10, .f32⟩
  | .local _ .vmem, ⟨31, _⟩ => ⟨S1x10, .f32⟩
  | .local _ .vmem, ⟨32, _⟩ => ⟨S2000x10, .f32⟩
  | .local _ .vmem, ⟨33, _⟩ => ⟨S2000x10, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x500_S500x128_S2000x128_1_0_0_1_n_n_wf : DotDims.WF S2000x500 S500x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x10.size a ≤ S100000x10.size a
  hwx4_3 : ∀ i : grid4.Coords, EltTy.bits .f32 = 32 ∨ (Rect.block (s := S100000x10) S2000x10.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 144
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x64, .f32⟩
  | 5 => ⟨S64, .f32⟩
  | 6 => ⟨S64x10, .f32⟩
  | 7 => ⟨S10, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x500, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x10, .f32⟩
  | 13 => ⟨S1x10, .f32⟩
  | 14 => ⟨S100000x10, .f32⟩
  | 15 => ⟨S100000x10, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x500_S500x128_S100000x128_1_0_0_1_n_n_wf : DotDims.WF S100000x500 S500x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x10_S100000x10_1_0_0_1_n_n_wf : DotDims.WF S100000x64 S64x10 S100000x10 [1] [0] [0] [1] [] []

variable [Facts₀]

def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.LibReshape.lean ====
/-
  Two layout facts about a vector turned into a one-column or a one-row matrix. A reshape of `[n]` to `[n, 1]` and a
  `broadcast_in_dim` of `[n]` into `[n, 1]` along axis 0 hold the same entries: both read entry `r` of the vector at
  `(r, 0)`. Likewise `[n]` to `[1, n]` by a reshape and by a `broadcast_in_dim` along axis 1: both read entry `q` at `(0, q)`.
  Stated for any length and any element type.
-/
import Idealize.ShloMosaic.Lib.Pipeline.Value
import Idealize.ShloMosaic.Lib.ValueIdx

namespace Idealize.ShloMosaic.LibReshape

variable {α : Type}

/-- A vector as a column: the reshape and the broadcast along axis 0 are one array. -/
theorem shapeCast_col_eq_broadcastInDim {n : ℕ} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  have hj0 : (j 0).val < n := (j 0).isLt
  have hj1 : (j 1).val < 1 := (j 1).isLt
  let k : (⟨1, ![n]⟩ : Shape).Idx := fun a => match a with
    | ⟨0, _⟩ => ⟨(j 0).val, hj0⟩
  have e1 : shapeCast ⟨2, ![n, 1]⟩ x h j = x k := shapeCast_apply x h j k (by
    rw [Shape.rowMajor_val_two, Shape.rowMajor_val_one]
    show (j 0).val = (j 0).val * 1 + (j 1).val
    omega)
  have e2 : broadcastInDim ⟨2, ![n, 1]⟩ ![0] hb x j = x k := broadcastInDim_apply ![0] hb x j k (fun a => match a with
    | ⟨0, _⟩ => by
      show (j 0).val = if n = 1 then 0 else (j 0).val
      by_cases hn : n = 1
      · rw [if_pos hn]; omega
      · rw [if_neg hn])
  rw [e1, e2]

/-- A vector as a row: the reshape and the broadcast along axis 1 are one array. -/
theorem shapeCast_row_eq_broadcastInDim {n : ℕ} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  have hj0 : (j 0).val < 1 := (j 0).isLt
  have hj1 : (j 1).val < n := (j 1).isLt
  let k : (⟨1, ![n]⟩ : Shape).Idx := fun a => match a with
    | ⟨0, _⟩ => ⟨(j 1).val, hj1⟩
  have e1 : shapeCast ⟨2, ![1, n]⟩ x h j = x k := shapeCast_apply x h j k (by
    rw [Shape.rowMajor_val_two, Shape.rowMajor_val_one]
    show (j 1).val = (j 0).val * n + (j 1).val
    have : (j 0).val = 0 := by omega
    rw [this, Nat.zero_mul, Nat.zero_add])
  have e2 : broadcastInDim ⟨2, ![1, n]⟩ ![1] hb x j = x k := broadcastInDim_apply ![1] hb x j k (fun a => match a with
    | ⟨0, _⟩ => by
      show (j 1).val = if n = 1 then 0 else (j 1).val
      by_cases hn : n = 1
      · rw [if_pos hn]; omega
      · rw [if_neg hn])
  rw [e1, e2]

end Idealize.ShloMosaic.LibReshape
-- ==== Proof.TraceA.lean ====
/-
  What the program's buffers hold at the boundaries between its host stretches and its five kernel regions, for the
  buffers the later stretches and regions read. The boundaries' contents are a fold through the program: a host stretch
  rewrites the buffers its operations write and keeps the others; a region rewrites its output array and keeps the others.
  So a buffer written once holds, at every later boundary, what was written then.

  Read here, at the boundary where the first region is entered: the arguments (as launched: nothing writes them); the two
  index vectors (edge sources and destinations); the normalisation column dis² (an [n, 1] array) and the per-edge weight
  column dis[src] · dis[dst] (an [e, 1] array). The last four are computed by the first host stretches from the edge list
  alone, and each is the reference's own stage for it. The kernel's program reshapes a vector to a column where the
  reference broadcasts it into one: the same array (LibReshape). The reference computes the two columns once per layer, by
  the same operations, so each is read against both of the reference's stages.
-/
import proofs.«168582_j32908039422339_1_alg».proof.Proof.Gen.KernelIdeal.Frame
import proofs.«168582_j32908039422339_1_alg».proof.Proof.RefRead
import proofs.«168582_j32908039422339_1_alg».proof.Proof.LibReshape
import Idealize.ShloMosaic.Lib.StableHlo.Run

noncomputable section

open Idealize.ShloMosaic Idealize.ShloMosaic.TcCoe Idealize.SL.Sem Idealize.ShloMosaic.StableHlo

namespace Cert.Bridge.Trace

open Cert.KernelIdeal Cert.KernelIdeal.Gen

/-- No operation of the host stretch writes the buffer: each operation's one result buffer is another. -/
macro "unwritten " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

variable {F : FTy → Type} [FloatOps F]
variable (m : (ℓ : Loc nD τ sig) → Buf (Elt F) ℓ) (ρ : Dev nD → PrngReg) (c : Dev nD)

/-! ## The arguments when the first region is entered: as launched -/

/-- A buffer none of the three first host stretches writes holds, when the first region is entered, what was launched. -/
theorem at3_of_unwritten (b : Ref sig .tc)
    (h2 : ∀ op ∈ (hostOps0_2 : List (HloOp τ sig (Elt F))), Proc.devRef .tc b ∉ op.writes)
    (h1 : ∀ op ∈ (hostOps0_1 : List (HloOp τ sig (Elt F))), Proc.devRef .tc b ∉ op.writes)
    (h0 : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

theorem arg0_at3 : W3 m ρ c (Proc.devRef .tc main_arg0) = m ((c : Thread nD τ).loc main_arg0) :=
  at3_of_unwritten m ρ c main_arg0 (by unwritten hostOps0_2) (by unwritten hostOps0_1) (by unwritten hostOps0)
theorem arg2_at3 : W3 m ρ c (Proc.devRef .tc main_arg2) = m ((c : Thread nD τ).loc main_arg2) :=
  at3_of_unwritten m ρ c main_arg2 (by unwritten hostOps0_2) (by unwritten hostOps0_1) (by unwritten hostOps0)
theorem arg3_at3 : W3 m ρ c (Proc.devRef .tc main_arg3) = m ((c : Thread nD τ).loc main_arg3) :=
  at3_of_unwritten m ρ c main_arg3 (by unwritten hostOps0_2) (by unwritten hostOps0_1) (by unwritten hostOps0)
theorem arg4_at3 : W3 m ρ c (Proc.devRef .tc main_arg4) = m ((c : Thread nD τ).loc main_arg4) :=
  at3_of_unwritten m ρ c main_arg4 (by unwritten hostOps0_2) (by unwritten hostOps0_1) (by unwritten hostOps0)
theorem arg5_at3 : W3 m ρ c (Proc.devRef .tc main_arg5) = m ((c : Thread nD τ).loc main_arg5) :=
  at3_of_unwritten m ρ c main_arg5 (by unwritten hostOps0_2) (by unwritten hostOps0_1) (by unwritten hostOps0)
theorem arg6_at3 : W3 m ρ c (Proc.devRef .tc main_arg6) = m ((c : Thread nD τ).loc main_arg6) :=
  at3_of_unwritten m ρ c main_arg6 (by unwritten hostOps0_2) (by unwritten hostOps0_1) (by unwritten hostOps0)
theorem arg7_at3 : W3 m ρ c (Proc.devRef .tc main_arg7) = m ((c : Thread nD τ).loc main_arg7) :=
  at3_of_unwritten m ρ c main_arg7 (by unwritten hostOps0_2) (by unwritten hostOps0_1) (by unwritten hostOps0)

/-! ## What the first host stretches compute from the edge list -/

/-- The first two stretches' result at one buffer, computed: each operation's function of its operands' contents. -/
macro "two_stretches" : tactic => `(tactic|
  (dsimp only [hostOps0_1, hostOps0]
   after_results
   rfl))

/-- After the first two stretches: the edge sources, -/
theorem src_at2 : W2 m ρ c (Proc.devRef .tc main_v1) = Cert.ReferenceIdeal.Read.val_main_v1 (F := F) (m ((c : Thread nD τ).loc main_arg1)) := by
  show StableHlo.after hostOps0_1 (StableHlo.after hostOps0 (W0 m ρ c)) (Proc.devRef .tc main_v1) = _
  two_stretches

/-- the edge destinations, -/
theorem dst_at2 : W2 m ρ c (Proc.devRef .tc main_v3) = Cert.ReferenceIdeal.Read.val_main_v3 (F := F) (m ((c : Thread nD τ).loc main_arg1)) := by
  show StableHlo.after hostOps0_1 (StableHlo.after hostOps0 (W0 m ρ c)) (Proc.devRef .tc main_v3) = _
  two_stretches

set_option maxHeartbeats 1000000 in
/-- and dis (the degree's inverse square root where the degree is positive, zero elsewhere), as the reference's stage of
    the first layer -/
theorem dis_at2 : W2 m ρ c (Proc.devRef .tc main_v13) = Cert.ReferenceIdeal.Read.val_main_v14 (F := F) (m ((c : Thread nD τ).loc main_arg1)) := by
  show StableHlo.after hostOps0_1 (StableHlo.after hostOps0 (W0 m ρ c)) (Proc.devRef .tc main_v13) = _
  two_stretches

set_option maxHeartbeats 1000000 in
/-- and of the second (the reference computes it again, by the same operations). -/
theorem dis_at2' : W2 m ρ c (Proc.devRef .tc main_v13) = Cert.ReferenceIdeal.Read.val_main_v62 (F := F) (m ((c : Thread nD τ).loc main_arg1)) := by
  show StableHlo.after hostOps0_1 (StableHlo.after hostOps0 (W0 m ρ c)) (Proc.devRef .tc main_v13) = _
  two_stretches

/-- When the first region is entered: the edge sources and -/
theorem src_at3 : W3 m ρ c (Proc.devRef .tc main_v1) = Cert.ReferenceIdeal.Read.val_main_v1 (F := F) (m ((c : Thread nD τ).loc main_arg1)) :=
  (StableHlo.after_of_forall_not_mem _ _ (by unwritten hostOps0_2)).trans (src_at2 m ρ c)

/-- destinations, kept by the third stretch; -/
theorem dst_at3 : W3 m ρ c (Proc.devRef .tc main_v3) = Cert.ReferenceIdeal.Read.val_main_v3 (F := F) (m ((c : Thread nD τ).loc main_arg1)) :=
  (StableHlo.after_of_forall_not_mem _ _ (by unwritten hostOps0_2)).trans (dst_at2 m ρ c)

/-- the column dis² (the kernel's program reshapes the vector to [n, 1]; the reference broadcasts it there), as the first
    layer's stage of the reference -/
theorem disq_at3 : W3 m ρ c (Proc.devRef .tc main_v15) = Cert.ReferenceIdeal.Read.val_main_v44 (F := F) (m ((c : Thread nD τ).loc main_arg1)) := by
  have e : Cert.ReferenceIdeal.Read.val_main_v44 (F := F) (m ((c : Thread nD τ).loc main_arg1))
      = shapeCast S100000x1 (Cert.ReferenceIdeal.Read.val_main_v43 (F := F) (m ((c : Thread nD τ).loc main_arg1))) shapeCasts_S100000_S100000x1 := by
    unfold Cert.ReferenceIdeal.Read.val_main_v44
    exact (LibReshape.shapeCast_col_eq_broadcastInDim (n := 100000) _ _ _).symm
  rw [e]
  have hd := dis_at2 m ρ c
  show StableHlo.after hostOps0_2 (W2 m ρ c) (Proc.devRef .tc main_v15) = _
  generalize W2 m ρ c = W at hd ⊢
  dsimp only [hostOps0_2]
  after_results
  rw [hd]
  rfl

/-- and as the second layer's, -/
theorem disq_at3' : W3 m ρ c (Proc.devRef .tc main_v15) = Cert.ReferenceIdeal.Read.val_main_v92 (F := F) (m ((c : Thread nD τ).loc main_arg1)) := by
  have e : Cert.ReferenceIdeal.Read.val_main_v92 (F := F) (m ((c : Thread nD τ).loc main_arg1))
      = shapeCast S100000x1 (Cert.ReferenceIdeal.Read.val_main_v91 (F := F) (m ((c : Thread nD τ).loc main_arg1))) shapeCasts_S100000_S100000x1 := by
    unfold Cert.ReferenceIdeal.Read.val_main_v92
    exact (LibReshape.shapeCast_col_eq_broadcastInDim (n := 100000) _ _ _).symm
  rw [e]
  have hd := dis_at2' m ρ c
  show StableHlo.after hostOps0_2 (W2 m ρ c) (Proc.devRef .tc main_v15) = _
  generalize W2 m ρ c = W at hd ⊢
  dsimp only [hostOps0_2]
  after_results
  rw [hd]
  rfl

set_option maxHeartbeats 2000000 in
/-- the column of edge weights dis[src] · dis[dst] (negative indices wrapped once, as the host's indexing does), as the
    first layer's stage of the reference -/
theorem norm_at3 : W3 m ρ c (Proc.devRef .tc main_v31) = Cert.ReferenceIdeal.Read.val_main_v37 (F := F) (m ((c : Thread nD τ).loc main_arg1)) := by
  have e : Cert.ReferenceIdeal.Read.val_main_v37 (F := F) (m ((c : Thread nD τ).loc main_arg1))
      = shapeCast S1600000x1 (Cert.ReferenceIdeal.Read.val_main_v29 (F := F) (m ((c : Thread nD τ).loc main_arg1))) shapeCasts_S1600000_S1600000x1 := by
    unfold Cert.ReferenceIdeal.Read.val_main_v37
    exact (LibReshape.shapeCast_col_eq_broadcastInDim (n := 1600000) _ _ _).symm
  rw [e]
  have hd := dis_at2 m ρ c
  have hs := src_at2 m ρ c
  have ht := dst_at2 m ρ c
  show StableHlo.after hostOps0_2 (W2 m ρ c) (Proc.devRef .tc main_v31) = _
  generalize W2 m ρ c = W at hd hs ht ⊢
  dsimp only [hostOps0_2]
  after_results
  rw [hd, hs, ht]
  rfl

set_option maxHeartbeats 2000000 in
/-- and as the second layer's. -/
theorem norm_at3' : W3 m ρ c (Proc.devRef .tc main_v31) = Cert.ReferenceIdeal.Read.val_main_v85 (F := F) (m ((c : Thread nD τ).loc main_arg1)) := by
  have e : Cert.ReferenceIdeal.Read.val_main_v85 (F := F) (m ((c : Thread nD τ).loc main_arg1))
      = shapeCast S1600000x1 (Cert.ReferenceIdeal.Read.val_main_v77 (F := F) (m ((c : Thread nD τ).loc main_arg1))) shapeCasts_S1600000_S1600000x1 := by
    unfold Cert.ReferenceIdeal.Read.val_main_v85
    exact (LibReshape.shapeCast_col_eq_broadcastInDim (n := 1600000) _ _ _).symm
  rw [e]
  have hd := dis_at2' m ρ c
  have hs := src_at2 m ρ c
  have ht := dst_at2 m ρ c
  show StableHlo.after hostOps0_2 (W2 m ρ c) (Proc.devRef .tc main_v31) = _
  generalize W2 m ρ c = W at hd hs ht ⊢
  dsimp only [hostOps0_2]
  after_results
  rw [hd, hs, ht]
  rfl

end Cert.Bridge.Trace

end
-- ==== Proof.TraceKeep.lean ====
/-
  The buffers of TraceA at the later boundaries where they are read. A buffer written once keeps its contents: across a
  host stretch because none of the stretch's operations writes it, across a region because it is not one of the region's
  arrays. The walks are stated once for an arbitrary buffer, boundary by boundary; each buffer then only says that it is
  none of the arrays and results met on the way.
-/
import proofs.«168582_j32908039422339_1_alg».proof.Proof.TraceA

noncomputable section

open Idealize.ShloMosaic Idealize.ShloMosaic.TcCoe Idealize.SL.Sem Idealize.ShloMosaic.StableHlo

namespace Cert.Bridge.Trace

open Cert.KernelIdeal Cert.KernelIdeal.Gen

variable {F : FTy → Type} [FloatOps F]
variable (m : (ℓ : Loc nD τ sig) → Buf (Elt F) ℓ) (ρ : Dev nD → PrngReg) (c : Dev nD)

/-! ## The walks, for any buffer -/

/-- Across the first aggregation's host stretch and back over the first region. -/
theorem at5_eq_at3 (b : Ref sig .tc)
    (hs : ∀ op ∈ (hostOps1 : List (HloOp τ sig (Elt F))), Proc.devRef .tc b ∉ op.writes)
    (h0 : ∀ w, Pipeline.arrRef spec0 w ≠ b) :
    W5 m ρ c (Proc.devRef .tc b) = W3 m ρ c (Proc.devRef .tc b) :=
  calc W5 m ρ c (Proc.devRef .tc b)
    _ = W4 m ρ c (Proc.devRef .tc b) := StableHlo.after_of_forall_not_mem _ _ hs
    _ = W3 m ρ c (Proc.devRef .tc b) := W4_of_ne m ρ c b h0

/-- From after the second product region back to the first region's entry. -/
theorem at7_eq_at3 (b : Ref sig .tc)
    (h2 : ∀ w, Pipeline.arrRef spec2 w ≠ b) (h1 : ∀ w, Pipeline.arrRef spec1 w ≠ b)
    (hs : ∀ op ∈ (hostOps1 : List (HloOp τ sig (Elt F))), Proc.devRef .tc b ∉ op.writes)
    (h0 : ∀ w, Pipeline.arrRef spec0 w ≠ b) :
    W7 m ρ c (Proc.devRef .tc b) = W3 m ρ c (Proc.devRef .tc b) :=
  calc W7 m ρ c (Proc.devRef .tc b)
    _ = W6 m ρ c (Proc.devRef .tc b) := W7_of_ne m ρ c b h2
    _ = W5 m ρ c (Proc.devRef .tc b) := W6_of_ne m ρ c b h1
    _ = W3 m ρ c (Proc.devRef .tc b) := at5_eq_at3 m ρ c b hs h0

/-- Across the second aggregation's host stretch. -/
theorem at8_eq_at7 (b : Ref sig .tc)
    (hs : ∀ op ∈ (hostOps3 : List (HloOp τ sig (Elt F))), Proc.devRef .tc b ∉ op.writes) :
    W8 m ρ c (Proc.devRef .tc b) = W7 m ρ c (Proc.devRef .tc b) :=
  StableHlo.after_of_forall_not_mem _ _ hs

/-- Across the last host stretch (the classifier's bias row). -/
theorem at10_eq_at9 (b : Ref sig .tc)
    (hs : ∀ op ∈ (hostOps4 : List (HloOp τ sig (Elt F))), Proc.devRef .tc b ∉ op.writes) :
    W10 m ρ c (Proc.devRef .tc b) = W9 m ρ c (Proc.devRef .tc b) :=
  StableHlo.after_of_forall_not_mem _ _ hs

/-! ## After the first region (the boundary the first aggregation starts from) -/

theorem src_at4 : W4 m ρ c (Proc.devRef .tc main_v1) = Cert.ReferenceIdeal.Read.val_main_v1 (F := F) (m ((c : Thread nD τ).loc main_arg1)) :=
  (W4_of_ne m ρ c main_v1 (by decide)).trans (src_at3 m ρ c)
theorem dst_at4 : W4 m ρ c (Proc.devRef .tc main_v3) = Cert.ReferenceIdeal.Read.val_main_v3 (F := F) (m ((c : Thread nD τ).loc main_arg1)) :=
  (W4_of_ne m ρ c main_v3 (by decide)).trans (dst_at3 m ρ c)
theorem norm_at4 : W4 m ρ c (Proc.devRef .tc main_v31) = Cert.ReferenceIdeal.Read.val_main_v37 (F := F) (m ((c : Thread nD τ).loc main_arg1)) :=
  (W4_of_ne m ρ c main_v31 (by decide)).trans (norm_at3 m ρ c)
theorem arg3_at4 : W4 m ρ c (Proc.devRef .tc main_arg3) = m ((c : Thread nD τ).loc main_arg3) :=
  (W4_of_ne m ρ c main_arg3 (by decide)).trans (arg3_at3 m ρ c)

/-! ## When the first activation region is entered -/

/-- The first product, untouched by the aggregation's host stretch. -/
theorem h1_at5 : W5 m ρ c (Proc.devRef .tc main_v32) = W4 m ρ c (Proc.devRef .tc main_v32) :=
  StableHlo.after_of_forall_not_mem _ _ (by unwritten hostOps1)

theorem disq_at5 : W5 m ρ c (Proc.devRef .tc main_v15) = Cert.ReferenceIdeal.Read.val_main_v44 (F := F) (m ((c : Thread nD τ).loc main_arg1)) :=
  (at5_eq_at3 m ρ c main_v15 (by unwritten hostOps1) (by decide)).trans (disq_at3 m ρ c)

/-! ## When the second product region is entered -/

theorem arg4_at6 : W6 m ρ c (Proc.devRef .tc main_arg4) = m ((c : Thread nD τ).loc main_arg4) :=
  (W6_of_ne m ρ c main_arg4 (by decide)).trans ((at5_eq_at3 m ρ c main_arg4 (by unwritten hostOps1) (by decide)).trans (arg4_at3 m ρ c))

/-! ## After the second product region (the boundary the second aggregation starts from) -/

theorem src_at7 : W7 m ρ c (Proc.devRef .tc main_v1) = Cert.ReferenceIdeal.Read.val_main_v1 (F := F) (m ((c : Thread nD τ).loc main_arg1)) :=
  (at7_eq_at3 m ρ c main_v1 (by decide) (by decide) (by unwritten hostOps1) (by decide)).trans (src_at3 m ρ c)
theorem dst_at7 : W7 m ρ c (Proc.devRef .tc main_v3) = Cert.ReferenceIdeal.Read.val_main_v3 (F := F) (m ((c : Thread nD τ).loc main_arg1)) :=
  (at7_eq_at3 m ρ c main_v3 (by decide) (by decide) (by unwritten hostOps1) (by decide)).trans (dst_at3 m ρ c)
theorem norm_at7 : W7 m ρ c (Proc.devRef .tc main_v31) = Cert.ReferenceIdeal.Read.val_main_v85 (F := F) (m ((c : Thread nD τ).loc main_arg1)) :=
  (at7_eq_at3 m ρ c main_v31 (by decide) (by decide) (by unwritten hostOps1) (by decide)).trans (norm_at3' m ρ c)
theorem arg5_at7 : W7 m ρ c (Proc.devRef .tc main_arg5) = m ((c : Thread nD τ).loc main_arg5) :=
  (at7_eq_at3 m ρ c main_arg5 (by decide) (by decide) (by unwritten hostOps1) (by decide)).trans (arg5_at3 m ρ c)

/-! ## When the second activation region is entered -/

/-- The second product, untouched by the aggregation's host stretch. -/
theorem h2_at8 : W8 m ρ c (Proc.devRef .tc main_v47) = W7 m ρ c (Proc.devRef .tc main_v47) :=
  at8_eq_at7 m ρ c main_v47 (by unwritten hostOps3)

/-- The column dis² is itself an input array of the first activation region, which leaves an input array as it found it. -/
theorem disq_at6_eq_at5 : W6 m ρ c (Proc.devRef .tc main_v15) = W5 m ρ c (Proc.devRef .tc main_v15) :=
  (W6_arr m ρ c 2).trans (((dat1 (V5 m ρ) c).arrAt_in 2 rfl _).trans (A_eq1 (V5 m ρ) c 2))

theorem disq_at8 : W8 m ρ c (Proc.devRef .tc main_v15) = Cert.ReferenceIdeal.Read.val_main_v92 (F := F) (m ((c : Thread nD τ).loc main_arg1)) :=
  calc W8 m ρ c (Proc.devRef .tc main_v15)
    _ = W7 m ρ c (Proc.devRef .tc main_v15) := at8_eq_at7 m ρ c main_v15 (by unwritten hostOps3)
    _ = W6 m ρ c (Proc.devRef .tc main_v15) := W7_of_ne m ρ c main_v15 (by decide)
    _ = W5 m ρ c (Proc.devRef .tc main_v15) := disq_at6_eq_at5 m ρ c
    _ = W3 m ρ c (Proc.devRef .tc main_v15) := at5_eq_at3 m ρ c main_v15 (by unwritten hostOps1) (by decide)
    _ = _ := disq_at3' m ρ c

/-! ## After the second activation region, and when the classifier region is entered -/

theorem arg7_at9 : W9 m ρ c (Proc.devRef .tc main_arg7) = m ((c : Thread nD τ).loc main_arg7) :=
  (W9_of_ne m ρ c main_arg7 (by decide)).trans ((at8_eq_at7 m ρ c main_arg7 (by unwritten hostOps3)).trans
    ((at7_eq_at3 m ρ c main_arg7 (by decide) (by decide) (by unwritten hostOps1) (by decide)).trans (arg7_at3 m ρ c)))

/-- The second activation, untouched by the last host stretch. -/
theorem a2_at10 : W10 m ρ c (Proc.devRef .tc main_v61) = W9 m ρ c (Proc.devRef .tc main_v61) :=
  at10_eq_at9 m ρ c main_v61 (by unwritten hostOps4)

theorem arg6_at10 : W10 m ρ c (Proc.devRef .tc main_arg6) = m ((c : Thread nD τ).loc main_arg6) :=
  (at10_eq_at9 m ρ c main_arg6 (by unwritten hostOps4)).trans ((W9_of_ne m ρ c main_arg6 (by decide)).trans
    ((at8_eq_at7 m ρ c main_arg6 (by unwritten hostOps3)).trans
      ((at7_eq_at3 m ρ c main_arg6 (by decide) (by decide) (by unwritten hostOps1) (by decide)).trans (arg6_at3 m ρ c))))

end Cert.Bridge.Trace

end
-- ==== Proof.TraceHost.lean ====
/-
  What the host stretches between the regions compute. Each neighbour aggregation gathers the rows of the preceding
  product by edge source, scales row e by the edge weight dis[src e] · dis[dst e], and scatter-adds the rows by edge
  destination into zeros. The index vectors and the weight column are those of TraceA (kept across the regions, TraceKeep),
  so the aggregation of ANY array h is the reference's own aggregation stage with h in the product's place: that is how it
  is stated, the product's contents a parameter. The three bias rows are the bias vectors reshaped to one row, which is the
  reference's broadcast of them into one row (LibReshape).
-/
import proofs.«168582_j32908039422339_1_alg».proof.Proof.TraceKeep

noncomputable section

open Idealize.ShloMosaic Idealize.ShloMosaic.TcCoe Idealize.SL.Sem Idealize.ShloMosaic.StableHlo

namespace Cert.Bridge.Trace

open Cert.KernelIdeal Cert.KernelIdeal.Gen

variable {F : FTy → Type} [FloatOps F]
variable (m : (ℓ : Loc nD τ sig) → Buf (Elt F) ℓ) (ρ : Dev nD → PrngReg) (c : Dev nD)

/-! ## The first layer's aggregation and bias row -/

set_option maxHeartbeats 2000000 in
/-- The first aggregation of whatever the first product region left (`h1`). -/
theorem agg1_at5 (h1 : (⟨S100000x128, .f32⟩ : BufTy).Contents (Elt F)) (hh : W4 m ρ c (Proc.devRef .tc main_v32) = h1) :
    W5 m ρ c (Proc.devRef .tc main_v44)
      = Host.scatterAdd Cert.ReferenceIdeal.scatter_S100000x128_S1600000x1_S1600000x128_1_0_0_1 (Cert.ReferenceIdeal.Read.val_main_v40 (F := F))
          (Cert.ReferenceIdeal.Read.val_main_v41 (F := F) (m ((c : Thread nD τ).loc main_arg1)))
          (mulf (Host.gather Cert.ReferenceIdeal.gather_S100000x128_S1600000x1_S1600000x128_1_0_n_n_0_1_1128 h1 (Cert.ReferenceIdeal.Read.val_main_v35 (F := F) (m ((c : Thread nD τ).loc main_arg1))))
            (Cert.ReferenceIdeal.Read.val_main_v38 (F := F) (m ((c : Thread nD τ).loc main_arg1)))) := by
  have hs := src_at4 m ρ c
  have ht := dst_at4 m ρ c
  have hn := norm_at4 m ρ c
  show StableHlo.after hostOps1 (W4 m ρ c) (Proc.devRef .tc main_v44) = _
  generalize W4 m ρ c = W at hs ht hn hh ⊢
  dsimp only [hostOps1]
  after_results
  rw [hs, ht, hn, hh]
  rfl

/-- The first bias as a row. -/
theorem bias1_at5 : W5 m ρ c (Proc.devRef .tc main_v45) = Cert.ReferenceIdeal.Read.val_main_v48 (F := F) (m ((c : Thread nD τ).loc main_arg3)) := by
  have e : Cert.ReferenceIdeal.Read.val_main_v48 (F := F) (m ((c : Thread nD τ).loc main_arg3))
      = shapeCast S1x128 (m ((c : Thread nD τ).loc main_arg3)) shapeCasts_S128_S1x128 := by
    unfold Cert.ReferenceIdeal.Read.val_main_v48
    exact (LibReshape.shapeCast_row_eq_broadcastInDim (n := 128) _ _ _).symm
  rw [e]
  show StableHlo.after hostOps1 (W4 m ρ c) (Proc.devRef .tc main_v45) = _
  dsimp only [hostOps1]
  after_results
  rw [arg3_at4 m ρ c]
  rfl

/-! ## The second layer's aggregation and bias row -/

set_option maxHeartbeats 2000000 in
/-- The second aggregation of whatever the second product region left (`h2`). -/
theorem agg2_at8 (h2 : (⟨S100000x64, .f32⟩ : BufTy).Contents (Elt F)) (hh : W7 m ρ c (Proc.devRef .tc main_v47) = h2) :
    W8 m ρ c (Proc.devRef .tc main_v59)
      = Host.scatterAdd Cert.ReferenceIdeal.scatter_S100000x64_S1600000x1_S1600000x64_1_0_0_1 (Cert.ReferenceIdeal.Read.val_main_v88 (F := F))
          (Cert.ReferenceIdeal.Read.val_main_v89 (F := F) (m ((c : Thread nD τ).loc main_arg1)))
          (mulf (Host.gather Cert.ReferenceIdeal.gather_S100000x64_S1600000x1_S1600000x64_1_0_n_n_0_1_164 h2 (Cert.ReferenceIdeal.Read.val_main_v83 (F := F) (m ((c : Thread nD τ).loc main_arg1))))
            (Cert.ReferenceIdeal.Read.val_main_v86 (F := F) (m ((c : Thread nD τ).loc main_arg1)))) := by
  have hs := src_at7 m ρ c
  have ht := dst_at7 m ρ c
  have hn := norm_at7 m ρ c
  show StableHlo.after hostOps3 (W7 m ρ c) (Proc.devRef .tc main_v59) = _
  generalize W7 m ρ c = W at hs ht hn hh ⊢
  dsimp only [hostOps3]
  after_results
  rw [hs, ht, hn, hh]
  rfl

/-- The second bias as a row. -/
theorem bias2_at8 : W8 m ρ c (Proc.devRef .tc main_v60) = Cert.ReferenceIdeal.Read.val_main_v96 (F := F) (m ((c : Thread nD τ).loc main_arg5)) := by
  have e : Cert.ReferenceIdeal.Read.val_main_v96 (F := F) (m ((c : Thread nD τ).loc main_arg5))
      = shapeCast S1x64 (m ((c : Thread nD τ).loc main_arg5)) shapeCasts_S64_S1x64 := by
    unfold Cert.ReferenceIdeal.Read.val_main_v96
    exact (LibReshape.shapeCast_row_eq_broadcastInDim (n := 64) _ _ _).symm
  rw [e]
  show StableHlo.after hostOps3 (W7 m ρ c) (Proc.devRef .tc main_v60) = _
  dsimp only [hostOps3]
  after_results
  rw [arg5_at7 m ρ c]
  rfl

/-! ## The classifier's bias row -/

theorem bias3_at10 : W10 m ρ c (Proc.devRef .tc main_v62) = Cert.ReferenceIdeal.Read.val_main_v101 (F := F) (m ((c : Thread nD τ).loc main_arg7)) := by
  have e : Cert.ReferenceIdeal.Read.val_main_v101 (F := F) (m ((c : Thread nD τ).loc main_arg7))
      = shapeCast S1x10 (m ((c : Thread nD τ).loc main_arg7)) shapeCasts_S10_S1x10 := by
    unfold Cert.ReferenceIdeal.Read.val_main_v101
    exact (LibReshape.shapeCast_row_eq_broadcastInDim (n := 10) _ _ _).symm
  rw [e]
  show StableHlo.after hostOps4 (W9 m ρ c) (Proc.devRef .tc main_v62) = _
  dsimp only [hostOps4]
  after_results
  rw [arg7_at9 m ρ c]
  rfl

end Cert.Bridge.Trace

end
-- ==== Proof.Dense1.lean ====
/-
  The first layer's dense product, read off its pipeline. The region multiplies the 100000 × 500 array X by the
  500 × 128 array W: grid point t takes rows 2000·t … 2000·t + 1999 of X whole (all 500 columns) and W whole, casts both
  to bf16 (the identity on the extended reals), multiplies them into a zero accumulator and writes the 2000 × 128 result as
  row block t of the output. At an output entry (r, q) that is the sum over k < 500 of X (r, k) · W (k, q): the same sum
  the host's dot_general of the two whole arrays has at (r, q). The fifty row blocks tile the 100000 rows, so the array the
  region leaves IS that dot_general of the arrays the region found, whatever they were.
-/
import proofs.«168582_j32908039422339_1_alg».proof.Proof.Gen.KernelIdeal.Frame
import proofs.«168582_j32908039422339_1_alg».proof.Proof.RefRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Bridge.Dense1

open Cert.KernelIdeal Cert.KernelIdeal.Gen

-- the entry contents of the region: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- Row of the left block and -/
abbrev lrow (j : S2000x128.Idx) (k : Fin 500) : S2000x500.Idx := fun a => match a with
  | ⟨0, _⟩ => ⟨(j 0).val, (j 0).isLt⟩
  | ⟨1, _⟩ => ⟨k.val, k.isLt⟩
/-- column of the right one that entry `j` of the product pairs at contraction index `k`. -/
abbrev rcol (j : S2000x128.Idx) (k : Fin 500) : S500x128.Idx := fun a => match a with
  | ⟨0, _⟩ => ⟨k.val, k.isLt⟩
  | ⟨1, _⟩ => ⟨(j 1).val, (j 1).isLt⟩

theorem lhs_0 (j : S2000x128.Idx) (q : dot_S2000x500_S500x128_S2000x128_1_0_0_1_n_n.contr.Idx) :
    (dot_S2000x500_S500x128_S2000x128_1_0_0_1_n_n.lhsIdx j q 0).val = (j 0).val := by
  unfold DotDims.lhsIdx
  rw [dif_neg (show ¬(0 : Fin S2000x500.rank) ∈ dot_S2000x500_S500x128_S2000x128_1_0_0_1_n_n.lhsBatch by decide), dif_pos (show (0 : Fin S2000x500.rank) ∈ dot_S2000x500_S500x128_S2000x128_1_0_0_1_n_n.lhsNonContracting by decide)]
  rfl
theorem lhs_1 (j : S2000x128.Idx) (q : dot_S2000x500_S500x128_S2000x128_1_0_0_1_n_n.contr.Idx) :
    (dot_S2000x500_S500x128_S2000x128_1_0_0_1_n_n.lhsIdx j q 1).val = (q ⟨0, by decide⟩).val :=
  dot_S2000x500_S500x128_S2000x128_1_0_0_1_n_n.lhsIdx_val_of_single rfl j q
theorem rhs_0 (j : S2000x128.Idx) (q : dot_S2000x500_S500x128_S2000x128_1_0_0_1_n_n.contr.Idx) :
    (dot_S2000x500_S500x128_S2000x128_1_0_0_1_n_n.rhsIdx j q 0).val = (q ⟨0, by decide⟩).val :=
  dot_S2000x500_S500x128_S2000x128_1_0_0_1_n_n.rhsIdx_val_of_single rfl j q
theorem rhs_1 (j : S2000x128.Idx) (q : dot_S2000x500_S500x128_S2000x128_1_0_0_1_n_n.contr.Idx) :
    (dot_S2000x500_S500x128_S2000x128_1_0_0_1_n_n.rhsIdx j q 1).val = (j 1).val := by
  unfold DotDims.rhsIdx
  rw [dif_neg (show ¬(1 : Fin S500x128.rank) ∈ dot_S2000x500_S500x128_S2000x128_1_0_0_1_n_n.rhsBatch by decide), dif_pos (show (1 : Fin S500x128.rank) ∈ dot_S2000x500_S500x128_S2000x128_1_0_0_1_n_n.rhsNonContracting by decide)]
  rfl

/-- What one grid point stores, at an entry: the row of its left block against the column of its right block, summed
    over the 500 contraction indices (into a zero accumulator; the two casts to bf16 change nothing on the extended reals). -/
theorem pay_apply (x : Vec Ideal S2000x500 .f32) (w : Vec Ideal S500x128 .f32) (j : S2000x128.Idx) :
    k0_pay1 (F := Ideal) x w j = ∑ k : Fin 500, x (lrow j k) * w (rcol j k) := by
  unfold k0_pay1
  simp only [matmul]
  rw [Ideal.matmul_constant_zero_apply, ← Equiv.sum_comp (ValueIdx.contrEquiv1 dot_S2000x500_S500x128_S2000x128_1_0_0_1_n_n 500 rfl rfl).symm]
  refine Finset.sum_congr rfl fun k _ => ?_
  have hk := ValueIdx.contrEquiv1_symm_val dot_S2000x500_S500x128_S2000x128_1_0_0_1_n_n 500 rfl rfl k
  have el : dot_S2000x500_S500x128_S2000x128_1_0_0_1_n_n.lhsIdx j ((ValueIdx.contrEquiv1 dot_S2000x500_S500x128_S2000x128_1_0_0_1_n_n 500 rfl rfl).symm k) = lrow j k := funext fun a => Fin.ext (by
    match a with
    | ⟨0, _⟩ => exact lhs_0 _ _
    | ⟨1, _⟩ => exact (lhs_1 _ _).trans hk)
  have er : dot_S2000x500_S500x128_S2000x128_1_0_0_1_n_n.rhsIdx j ((ValueIdx.contrEquiv1 dot_S2000x500_S500x128_S2000x128_1_0_0_1_n_n 500 rfl rfl).symm k) = rcol j k := funext fun a => Fin.ext (by
    match a with
    | ⟨0, _⟩ => exact (rhs_0 _ _).trans hk
    | ⟨1, _⟩ => exact rhs_1 _ _)
  rw [el, er]
  rfl

/-! ## The whole product, and the blocks as its rows -/

/-- The product of the two whole arrays, as the host states it. -/
abbrev prod (x : FVec Ideal S100000x500 .f32) (w : FVec Ideal S500x128 .f32) : FVec Ideal S100000x128 .f32 :=
  Host.dotGeneral Cert.ReferenceIdeal.dot_S100000x500_S500x128_S100000x128_1_0_0_1_n_n none x w

/-- At an entry it is the row of X against the column of W. -/
theorem prod_apply (x : FVec Ideal S100000x500 .f32) (w : FVec Ideal S500x128 .f32) (i : S100000x128.Idx) :
    prod x w i = ∑ k : Fin 500, x (Cert.ReferenceIdeal.Read.lidx_main_v4 i k) * w (Cert.ReferenceIdeal.Read.ridx_main_v4 i k) :=
  Cert.ReferenceIdeal.Read.val_main_v4_apply x w i

/-- The printed index maps over the grid: the left operand's and the output's blocks are row block `t`, the right operand's
    is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is row block `t` of the product of the arrays the region found. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x128) hz]
  obtain ⟨e0, e1, e2, e3, e4, e5⟩ := idx_facts t
  funext j
  show k0_pay1 (F := Ideal) (iblk0 V c 0 t) (iblk0 V c 1 t) j = prod (V c main_arg0) (V c main_arg2) (((cfg0.win 2).blk t).view.emb j)
  refine (pay_apply (iblk0 V c 0 t) (iblk0 V c 1 t) j).trans ?_
  refine Eq.trans ?_ (prod_apply (V c main_arg0) (V c main_arg2) (((cfg0.win 2).blk t).view.emb j)).symm
  refine Finset.sum_congr rfl fun k _ => ?_
  have hj0 : (j 0).val < 2000 := (j 0).isLt
  have hl : iblk0 V c 0 t (lrow j k) = V c main_arg0 (Cert.ReferenceIdeal.Read.lidx_main_v4 (((cfg0.win 2).blk t).view.emb j) k) := by
    show V c main_arg0 (((cfg0.win 0).blk t).view.emb (lrow j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 500 + 1 * k.val = k.val; omega
  have hr : iblk0 V c 1 t (rcol j k) = V c main_arg2 (Cert.ReferenceIdeal.Read.ridx_main_v4 (((cfg0.win 2).blk t).view.emb j) k) := by
    show V c main_arg2 (((cfg0.win 1).blk t).view.emb (rcol j k)) = _
    refine congrArg _ (funext fun a => Fin.ext ?_)
    match a with
    | ⟨0, _⟩ => show win0_1.index t (0 : Fin 2) * 500 + 1 * k.val = k.val; omega
    | ⟨1, _⟩ => show win0_1.index t (1 : Fin 2) * 128 + 1 * (j 1).val = win0_2.index t (1 : Fin 2) * 128 + 1 * (j 1).val; omega
  rw [hl, hr]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row block is some point's. -/
theorem idx_onto : ∀ q : Fin 50, ∃ t : Fin cfg0.N, win0_2.index t = ![q.val, 0] :=
  (by decide +kernel : ∀ q : Fin 50, ∃ t : Fin grid0.N, win0_2.index t = ![q.val, 0])

/-- The fifty row blocks cover the array: row `r` is in block `r / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY the region leaves: the product of the two arrays it found. -/
theorem value (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.Bridge.Dense1

end
-- ==== Proof.Dense2.lean ====
/-
  The second layer's dense product, read off its pipeline. The region multiplies the 100000 × 128 array X by the
  128 × 64 array W: grid point t takes rows 2000·t … 2000·t + 1999 of X whole (all 128 columns) and W whole, recasts the
  row block to its own shape (the identity), casts both to bf16 (the identity on the extended reals), multiplies them into
  a zero accumulator and writes the 2000 × 64 result as row block t of the output. At an output entry (r, q) that is the
  sum over k < 128 of X (r, k) · W (k, q): the same sum the host's dot_general of the two whole arrays has at (r, q). The
  fifty row blocks tile the 100000 rows, so the array the region leaves IS that dot_general of the arrays the region
  found, whatever they were.
-/
import proofs.«168582_j32908039422339_1_alg».proof.Proof.Gen.KernelIdeal.Frame
import proofs.«168582_j32908039422339_1_alg».proof.Proof.RefRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Bridge.Dense2

open Cert.KernelIdeal Cert.KernelIdeal.Gen

-- the entry contents of the region: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- Row of the left block and -/
abbrev lrow (j : S2000x64.Idx) (k : Fin 128) : S2000x128.Idx := fun a => match a with
  | ⟨0, _⟩ => ⟨(j 0).val, (j 0).isLt⟩
  | ⟨1, _⟩ => ⟨k.val, k.isLt⟩
/-- column of the right one that entry `j` of the product pairs at contraction index `k`. -/
abbrev rcol (j : S2000x64.Idx) (k : Fin 128) : S128x64.Idx := fun a => match a with
  | ⟨0, _⟩ => ⟨k.val, k.isLt⟩
  | ⟨1, _⟩ => ⟨(j 1).val, (j 1).isLt⟩

theorem lhs_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What one grid point stores, at an entry: the row of its left block against the column of its right block, summed
    over the 128 contraction indices (into a zero accumulator; the recast of the left block to its own shape and the two
    casts to bf16 change nothing on the extended reals). -/
theorem pay_apply (x : Vec Ideal S2000x128 .f32) (w : Vec Ideal S128x64 .f32) (j : S2000x64.Idx) :
    k2_pay1 (F := Ideal) x w j = ∑ k : Fin 128, x (lrow j k) * w (rcol j k) := by
  unfold k2_pay1
  simp only [matmul]
  rw [shapeCast_self]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The whole product, and the blocks as its rows -/

/-- The product of the two whole arrays, as the host states it. -/
abbrev prod (x : FVec Ideal S100000x128 .f32) (w : FVec Ideal S128x64 .f32) : FVec Ideal S100000x64 .f32 :=
  Host.dotGeneral Cert.ReferenceIdeal.dot_S100000x128_S128x64_S100000x64_1_0_0_1_n_n none x w

/-- At an entry it is the row of X against the column of W, whatever the two arrays are. -/
theorem prod_apply (x : FVec Ideal S100000x128 .f32) (w : FVec Ideal S128x64 .f32) (i : S100000x64.Idx) :
    prod x w i = ∑ k : Fin 128, x (Cert.ReferenceIdeal.Read.lidx_main_v52 i k) * w (Cert.ReferenceIdeal.Read.ridx_main_v52 i k) := by
  unfold prod
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : (Cert.ReferenceIdeal.dot_S100000x128_S128x64_S100000x64_1_0_0_1_n_n).lhsIdx i ((ValueIdx.contrEquiv1 Cert.ReferenceIdeal.dot_S100000x128_S128x64_S100000x64_1_0_0_1_n_n 128 rfl rfl).symm k) = Cert.ReferenceIdeal.Read.lidx_main_v52 i k := funext fun a => Fin.ext (by
    match a with
    | ⟨0, _⟩ => exact Cert.ReferenceIdeal.Read.lhs_main_v52_0 _ _
    | ⟨1, _⟩ => exact (Cert.ReferenceIdeal.Read.lhs_main_v52_1 _ _).trans hk)
  have er : (Cert.ReferenceIdeal.dot_S100000x128_S128x64_S100000x64_1_0_0_1_n_n).rhsIdx i ((ValueIdx.contrEquiv1 Cert.ReferenceIdeal.dot_S100000x128_S128x64_S100000x64_1_0_0_1_n_n 128 rfl rfl).symm k) = Cert.ReferenceIdeal.Read.ridx_main_v52 i k := funext fun a => Fin.ext (by
    match a with
    | ⟨0, _⟩ => exact (Cert.ReferenceIdeal.Read.rhs_main_v52_0 _ _).trans hk
    | ⟨1, _⟩ => exact Cert.ReferenceIdeal.Read.rhs_main_v52_1 _ _)
  rw [el, er]

/-- The printed index maps over the grid: the left operand's and the output's blocks are row block `t`, the right operand's
    is the whole array at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is row block `t` of the product of the arrays the region found. -/
theorem flushed_eq (c : Dev nD) (t : Fin cfg2.N) :
    (dat2 V c).flushed 2 t = ((cfg2.win 2).blk t).view.read (Elt Ideal) (prod (V c main_v46) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e0, e1, e2, e3, e4, e5⟩ := idx_facts t
  funext j
  show k2_pay1 (F := Ideal) (iblk2 V c 0 t) (iblk2 V c 1 t) j = prod (V c main_v46) (V c main_arg4) (((cfg2.win 2).blk t).view.emb j)
  refine (pay_apply (iblk2 V c 0 t) (iblk2 V c 1 t) j).trans ?_
  refine Eq.trans ?_ (prod_apply (V c main_v46) (V c main_arg4) (((cfg2.win 2).blk t).view.emb j)).symm
  refine Finset.sum_congr rfl fun k _ => ?_
  have hj0 : (j 0).val < 2000 := (j 0).isLt
  have hl : iblk2 V c 0 t (lrow j k) = V c main_v46 (Cert.ReferenceIdeal.Read.lidx_main_v52 (((cfg2.win 2).blk t).view.emb j) k) := by
    show V c main_v46 (((cfg2.win 0).blk t).view.emb (lrow j k)) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hr : iblk2 V c 1 t (rcol j k) = V c main_arg4 (Cert.ReferenceIdeal.Read.ridx_main_v52 (((cfg2.win 2).blk t).view.emb j) k) := by
    show V c main_arg4 (((cfg2.win 1).blk t).view.emb (rcol j k)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [hl, hr]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- Every row block is some point's. -/
theorem idx_onto : ∀ q : Fin 50, ∃ t : Fin cfg2.N, win2_2.index t = ![q.val, 0] :=
  (by decide +kernel : ∀ q : Fin 50, ∃ t : Fin grid2.N, win2_2.index t = ![q.val, 0])

/-- The fifty row blocks cover the array: row `r` is in block `r / 2000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE ARRAY the region leaves: the product of the two arrays it found. -/
theorem value (c : Dev nD) : (dat2 V c).arrAt 2 cfg2.N = prod (V c main_v46) (V c main_arg4) :=
  (dat2 V c).arrAt_eq_of_cover 2 (prod (V c main_v46) (V c main_arg4)) (fun t _ => flushed_eq V c t) cover

end Cert.Bridge.Dense2

end
-- ==== Proof.Dense3.lean ====
/-
  The last layer's dense product with its bias, read off its pipeline. The region multiplies the 100000 × 64 array X by the
  64 × 10 array W and adds the 1 × 10 row B to every row: grid point t takes rows 2000·t … 2000·t + 1999 of X whole (all 64
  columns), W whole and B whole, casts X's block and W to bf16 (the identity on the extended reals), multiplies them into a zero
  accumulator, adds B broadcast over the 2000 rows, and writes the 2000 × 10 result as row block t of the output. At an
  output entry (r, q) that is (the sum over k < 64 of X (r, k) · W (k, q)) + B (0, q): what the host's dot_general of the
  two whole arrays plus its broadcast of B over the 100000 rows has at (r, q). The fifty row blocks tile the 100000 rows,
  so the array the region leaves IS that sum of the arrays the region found, whatever they were.
-/
import proofs.«168582_j32908039422339_1_alg».proof.Proof.Gen.KernelIdeal.Frame
import proofs.«168582_j32908039422339_1_alg».proof.Proof.RefRead
import proofs.«168582_j32908039422339_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Bridge.Dense3

open Cert.KernelIdeal Cert.KernelIdeal.Gen

-- the entry contents of the region: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-! ## The block product plus the bias at an entry -/

/-- Row of the left block, -/
abbrev lrow (j : S2000x10.Idx) (k : Fin 64) : S2000x64.Idx := fun a => match a with
  | ⟨0, _⟩ => ⟨(j 0).val, (j 0).isLt⟩
  | ⟨1, _⟩ => ⟨k.val, k.isLt⟩
/-- column of the right one that entry `j` of the product pairs at contraction index `k`, and -/
abbrev rcol (j : S2000x10.Idx) (k : Fin 64) : S64x10.Idx := fun a => match a with
  | ⟨0, _⟩ => ⟨k.val, k.isLt⟩
  | ⟨1, _⟩ => ⟨(j 1).val, (j 1).isLt⟩
/-- the entry of the bias row added at entry `j`. -/
abbrev brow (j : S2000x10.Idx) : S1x10.Idx := fun a => match a with
  | ⟨0, _⟩ => ⟨0, Nat.one_pos⟩
  | ⟨1, _⟩ => ⟨(j 1).val, (j 1).isLt⟩

theorem lhs_0 (j : S2000x10.Idx) (q : dot_S2000x64_S64x10_S2000x10_1_0_0_1_n_n.contr.Idx) :
    (dot_S2000x64_S64x10_S2000x10_1_0_0_1_n_n.lhsIdx j q 0).val = (j 0).val := by
  unfold DotDims.lhsIdx
  rw [dif_neg (show ¬(0 : Fin S2000x64.rank) ∈ dot_S2000x64_S64x10_S2000x10_1_0_0_1_n_n.lhsBatch by decide), dif_pos (show (0 : Fin S2000x64.rank) ∈ dot_S2000x64_S64x10_S2000x10_1_0_0_1_n_n.lhsNonContracting by decide)]
  rfl
theorem lhs_1 (j : S2000x10.Idx) (q : dot_S2000x64_S64x10_S2000x10_1_0_0_1_n_n.contr.Idx) :
    (dot_S2000x64_S64x10_S2000x10_1_0_0_1_n_n.lhsIdx j q 1).val = (q ⟨0, by decide⟩).val :=
  dot_S2000x64_S64x10_S2000x10_1_0_0_1_n_n.lhsIdx_val_of_single rfl j q
theorem rhs_0 (j : S2000x10.Idx) (q : dot_S2000x64_S64x10_S2000x10_1_0_0_1_n_n.contr.Idx) :
    (dot_S2000x64_S64x10_S2000x10_1_0_0_1_n_n.rhsIdx j q 0).val = (q ⟨0, by decide⟩).val :=
  dot_S2000x64_S64x10_S2000x10_1_0_0_1_n_n.rhsIdx_val_of_single rfl j q
theorem rhs_1 (j : S2000x10.Idx) (q : dot_S2000x64_S64x10_S2000x10_1_0_0_1_n_n.contr.Idx) :
    (dot_S2000x64_S64x10_S2000x10_1_0_0_1_n_n.rhsIdx j q 1).val = (j 1).val := by
  unfold DotDims.rhsIdx
  rw [dif_neg (show ¬(1 : Fin S64x10.rank) ∈ dot_S2000x64_S64x10_S2000x10_1_0_0_1_n_n.rhsBatch by decide), dif_pos (show (1 : Fin S64x10.rank) ∈ dot_S2000x64_S64x10_S2000x10_1_0_0_1_n_n.rhsNonContracting by decide)]
  rfl

/-- The block product at an entry: the row of the left block against the column of the right block, summed over the 64
    contraction indices (into a zero accumulator; the casts change nothing on the extended reals). -/
theorem mm_apply (x : Vec Ideal S2000x64 .f32) (w : Vec Ideal S64x10 .f32) (j : S2000x10.Idx) :
    matmul (F := Ideal) dot_S2000x64_S64x10_S2000x10_1_0_0_1_n_n none
        (truncf (F := Ideal) .bf16 (shapeCast S2000x64 x shapeCasts_S2000x64_S2000x64) bitsLt_bf16_f32)
        (truncf (F := Ideal) .bf16 w bitsLt_bf16_f32) (constant (F := Ideal) S2000x10 .f32 0x00000000#32) j
      = ∑ k : Fin 64, x (lrow j k) * w (rcol j k) := by
  rw [shapeCast_self]
  simp only [matmul]
  rw [Ideal.matmul_constant_zero_apply, ← Equiv.sum_comp (ValueIdx.contrEquiv1 dot_S2000x64_S64x10_S2000x10_1_0_0_1_n_n 64 rfl rfl).symm]
  refine Finset.sum_congr rfl fun k _ => ?_
  have hk := ValueIdx.contrEquiv1_symm_val dot_S2000x64_S64x10_S2000x10_1_0_0_1_n_n 64 rfl rfl k
  have el : dot_S2000x64_S64x10_S2000x10_1_0_0_1_n_n.lhsIdx j ((ValueIdx.contrEquiv1 dot_S2000x64_S64x10_S2000x10_1_0_0_1_n_n 64 rfl rfl).symm k) = lrow j k := funext fun a => Fin.ext (by
    match a with
    | ⟨0, _⟩ => exact lhs_0 _ _
    | ⟨1, _⟩ => exact (lhs_1 _ _).trans hk)
  have er : dot_S2000x64_S64x10_S2000x10_1_0_0_1_n_n.rhsIdx j ((ValueIdx.contrEquiv1 dot_S2000x64_S64x10_S2000x10_1_0_0_1_n_n 64 rfl rfl).symm k) = rcol j k := funext fun a => Fin.ext (by
    match a with
    | ⟨0, _⟩ => exact (rhs_0 _ _).trans hk
    | ⟨1, _⟩ => exact rhs_1 _ _)
  rw [el, er]
  rfl

/-- The bias row broadcast over the rows, at an entry: the row's entry in that column. -/
theorem bias_apply (b : Vec Ideal S1x10 .f32) (j : S2000x10.Idx) :
    broadcastTo S2000x10 (shapeCast S1x10 b shapeCasts_S1x10_S1x10) broadcasts_S1x10_S2000x10 j = b (brow j) := by
  rw [shapeCast_self]
  exact broadcastTo_apply b broadcasts_S1x10_S2000x10 j (brow j) (fun a => match a with
    | ⟨0, _⟩ => by show 0 = if (1 : Nat) = 1 then 0 else _; rw [if_pos rfl]
    | ⟨1, _⟩ => by show (j 1).val = if (10 : Nat) = 1 then 0 else (j 1).val; rw [if_neg (by decide)])

/-- What one grid point stores, at an entry: the block product there plus the bias row's entry in that column. -/
theorem pay_apply (x : Vec Ideal S2000x64 .f32) (w : Vec Ideal S64x10 .f32) (b : Vec Ideal S1x10 .f32) (j : S2000x10.Idx) :
    k4_pay1 (F := Ideal) x w b j = (∑ k : Fin 64, x (lrow j k) * w (rcol j k)) + b (brow j) := by
  unfold k4_pay1
  show matmul (F := Ideal) dot_S2000x64_S64x10_S2000x10_1_0_0_1_n_n none
        (truncf (F := Ideal) .bf16 (shapeCast S2000x64 x shapeCasts_S2000x64_S2000x64) bitsLt_bf16_f32)
        (truncf (F := Ideal) .bf16 w bitsLt_bf16_f32) (constant (F := Ideal) S2000x10 .f32 0x00000000#32) j
      + broadcastTo S2000x10 (shapeCast S1x10 b shapeCasts_S1x10_S1x10) broadcasts_S1x10_S2000x10 j = _
  rw [mm_apply, bias_apply]

/-! ## The whole product plus the bias, and the blocks as its rows -/

/-- The product of the two whole arrays plus the bias row broadcast over the rows, as the host states it. -/
abbrev affine (x : FVec Ideal S100000x64 .f32) (w : FVec Ideal S64x10 .f32) (b : FVec Ideal S1x10 .f32) : FVec Ideal S100000x10 .f32 :=
  addf (Host.dotGeneral Cert.ReferenceIdeal.dot_S100000x64_S64x10_S100000x10_1_0_0_1_n_n none x w)
    (broadcastInDim Cert.ReferenceIdeal.S100000x10 ![0, 1] Cert.ReferenceIdeal.Gen.bcast_S1x10_S100000x10_0_1 b)

/-- The host's product of two whole arrays, at an entry: the row of the left against the column of the right. -/
theorem dot_apply (x : FVec Ideal S100000x64 .f32) (w : FVec Ideal S64x10 .f32) (i : S100000x10.Idx) :
    Host.dotGeneral Cert.ReferenceIdeal.dot_S100000x64_S64x10_S100000x10_1_0_0_1_n_n none x w i
      = ∑ k : Fin 64, x (Cert.ReferenceIdeal.Read.lidx_main_v100 i k) * w (Cert.ReferenceIdeal.Read.ridx_main_v100 i k) := by
  simp only [Host.dotGeneral]
  rw [Ideal.dotGeneral_apply, ← Equiv.sum_comp (ValueIdx.contrEquiv1 Cert.ReferenceIdeal.dot_S100000x64_S64x10_S100000x10_1_0_0_1_n_n 64 rfl rfl).symm]
  refine Finset.sum_congr rfl fun k _ => ?_
  have hk := ValueIdx.contrEquiv1_symm_val Cert.ReferenceIdeal.dot_S100000x64_S64x10_S100000x10_1_0_0_1_n_n 64 rfl rfl k
  have el : Cert.ReferenceIdeal.dot_S100000x64_S64x10_S100000x10_1_0_0_1_n_n.lhsIdx i ((ValueIdx.contrEquiv1 Cert.ReferenceIdeal.dot_S100000x64_S64x10_S100000x10_1_0_0_1_n_n 64 rfl rfl).symm k) = Cert.ReferenceIdeal.Read.lidx_main_v100 i k := funext fun a => Fin.ext (by
    match a with
    | ⟨0, _⟩ => exact Cert.ReferenceIdeal.Read.lhs_main_v100_0 _ _
    | ⟨1, _⟩ => exact (Cert.ReferenceIdeal.Read.lhs_main_v100_1 _ _).trans hk)
  have er : Cert.ReferenceIdeal.dot_S100000x64_S64x10_S100000x10_1_0_0_1_n_n.rhsIdx i ((ValueIdx.contrEquiv1 Cert.ReferenceIdeal.dot_S100000x64_S64x10_S100000x10_1_0_0_1_n_n 64 rfl rfl).symm k) = Cert.ReferenceIdeal.Read.ridx_main_v100 i k := funext fun a => Fin.ext (by
    match a with
    | ⟨0, _⟩ => exact (Cert.ReferenceIdeal.Read.rhs_main_v100_0 _ _).trans hk
    | ⟨1, _⟩ => exact Cert.ReferenceIdeal.Read.rhs_main_v100_1 _ _)
  rw [el, er]

/-- The host's broadcast of the bias row over the rows, at an entry: the row's entry in that column. -/
theorem bcast_apply (b : FVec Ideal S1x10 .f32) (i : S100000x10.Idx) :
    broadcastInDim Cert.ReferenceIdeal.S100000x10 ![0, 1] Cert.ReferenceIdeal.Gen.bcast_S1x10_S100000x10_0_1 b i
      = b (Cert.ReferenceIdeal.Read.idx_main_v102 i) :=
  broadcastInDim_apply _ Cert.ReferenceIdeal.Gen.bcast_S1x10_S100000x10_0_1 b i (Cert.ReferenceIdeal.Read.idx_main_v102 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

/-- At an entry the whole is the row of X against the column of W, plus B's entry in that column. -/
theorem affine_apply (x : FVec Ideal S100000x64 .f32) (w : FVec Ideal S64x10 .f32) (b : FVec Ideal S1x10 .f32) (i : S100000x10.Idx) :
    affine x w b i = (∑ k : Fin 64, x (Cert.ReferenceIdeal.Read.lidx_main_v100 i k) * w (Cert.ReferenceIdeal.Read.ridx_main_v100 i k))
      + b (Cert.ReferenceIdeal.Read.idx_main_v102 i) := by
  show Host.dotGeneral Cert.ReferenceIdeal.dot_S100000x64_S64x10_S100000x10_1_0_0_1_n_n none x w i
      + broadcastInDim Cert.ReferenceIdeal.S100000x10 ![0, 1] Cert.ReferenceIdeal.Gen.bcast_S1x10_S100000x10_0_1 b i = _
  rw [dot_apply, bcast_apply]

/-- The printed index maps over the grid: the left operand's and the output's blocks are row block `t`, the right operand's
    and the bias row's are the whole array at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is row block `t` of the product plus the bias of the arrays the region found. -/
theorem flushed_eq (c : Dev nD) (t : Fin cfg4.N) :
    (dat4 V c).flushed 3 t = ((cfg4.win 3).blk t).view.read (Elt Ideal) (affine (V c main_v61) (V c main_arg6) (V c main_v62)) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x10) hz, View.ld_unit_zero (S := S1x10) hz]
  obtain ⟨e0, e1, e2, e3, e4, e5, e6, e7⟩ := idx_facts t
  funext j
  show k4_pay1 (F := Ideal) (iblk4 V c 0 t) (iblk4 V c 1 t) (iblk4 V c 2 t) j = affine (V c main_v61) (V c main_arg6) (V c main_v62) (((cfg4.win 3).blk t).view.emb j)
  refine (pay_apply (iblk4 V c 0 t) (iblk4 V c 1 t) (iblk4 V c 2 t) j).trans ?_
  refine Eq.trans ?_ (affine_apply (V c main_v61) (V c main_arg6) (V c main_v62) (((cfg4.win 3).blk t).view.emb j)).symm
  have hj0 : (j 0).val < 2000 := (j 0).isLt
  have hb : iblk4 V c 2 t (brow j) = V c main_v62 (Cert.ReferenceIdeal.Read.idx_main_v102 (((cfg4.win 3).blk t).view.emb j)) := by
    show V c main_v62 (((cfg4.win 2).blk t).view.emb (brow j)) = _
    refine congrArg _ (funext fun a => Fin.ext ?_)
    match a with
    | ⟨0, _⟩ => show win4_2.index t (0 : Fin 2) * 1 + 1 * 0 = 0; omega
    | ⟨1, _⟩ => show win4_2.index t (1 : Fin 2) * 10 + 1 * (j 1).val = win4_3.index t (1 : Fin 2) * 10 + 1 * (j 1).val; omega
  rw [hb]
  refine congrArg (· + V c main_v62 (Cert.ReferenceIdeal.Read.idx_main_v102 (((cfg4.win 3).blk t).view.emb j))) (Finset.sum_congr rfl fun k _ => ?_)
  have hl : iblk4 V c 0 t (lrow j k) = V c main_v61 (Cert.ReferenceIdeal.Read.lidx_main_v100 (((cfg4.win 3).blk t).view.emb j) k) := by
    show V c main_v61 (((cfg4.win 0).blk t).view.emb (lrow j k)) = _
    refine congrArg _ (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 64 + 1 * k.val = k.val; omega
  have hr : iblk4 V c 1 t (rcol j k) = V c main_arg6 (Cert.ReferenceIdeal.Read.ridx_main_v100 (((cfg4.win 3).blk t).view.emb j) k) := by
    show V c main_arg6 (((cfg4.win 1).blk t).view.emb (rcol j k)) = _
    refine congrArg _ (funext fun a => Fin.ext ?_)
    match a with
    | ⟨0, _⟩ => show win4_1.index t (0 : Fin 2) * 64 + 1 * k.val = k.val; omega
    | ⟨1, _⟩ => show win4_1.index t (1 : Fin 2) * 10 + 1 * (j 1).val = win4_3.index t (1 : Fin 2) * 10 + 1 * (j 1).val; omega
  rw [hl, hr]

/-- An index of the output array is in point `t`'s block iff each coordinate is in the block's range on its axis. -/
theorem mem_blk (t : Fin cfg4.N) (i : S100000x10.Idx) :
    i ∈ ((cfg4.win 3).blk t).view.set ↔ ∀ a : Fin 2, win4_3.index t a * S2000x10.size a ≤ (i a).val ∧ (i a).val < win4_3.index t a * S2000x10.size a + S2000x10.size a := by
  show i ∈ ((View.whole main_v63).slice (win4_3.rect t)).set ↔ _
  rw [View.set_slice_whole, Rect.mem_set_unit]
  exact Iff.rfl

/-- Every row block is some point's. -/
theorem idx_onto : ∀ q : Fin 50, ∃ t : Fin cfg4.N, win4_3.index t = ![q.val, 0] :=
  (by decide +kernel : ∀ q : Fin 50, ∃ t : Fin grid4.N, win4_3.index t = ![q.val, 0])

/-- The fifty row blocks cover the array: row `r` is in block `r / 2000`. -/
theorem cover (i : S100000x10.Idx) : ∃ t : Fin cfg4.N, (cfg4.win 3).flush t = true ∧ i ∈ ((cfg4.win 3).blk t).view.set := by
  have hi0 : (i 0).val < 100000 := (i 0).isLt
  have hi1 : (i 1).val < 10 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 10 ≤ (i 1).val ∧ (i 1).val < win4_3.index t (1 : Fin 2) * 10 + 10; omega

/-- THE ARRAY the region leaves: the product of the two arrays it found plus the bias row it found, over every row. -/
theorem value (c : Dev nD) : (dat4 V c).arrAt 3 cfg4.N = affine (V c main_v61) (V c main_arg6) (V c main_v62) :=
  (dat4 V c).arrAt_eq_of_cover 3 (affine (V c main_v61) (V c main_arg6) (V c main_v62)) (fun t _ => flushed_eq V c t) cover

end Cert.Bridge.Dense3

end
-- ==== Proof.Act1.lean ====
/-
  The first layer's activation, read off its pipeline. The region takes four arrays: the aggregate A and the features H
  (both 100000 × 128), the per-row scale d (100000 × 1) and the bias b (1 × 128). Grid point t takes rows
  2000·t … 2000·t + 1999 of A, H and d, and b whole; on the block it forms, entry by entry,
  max((A + H · d) + b, 0), with d repeated along each row and b repeated down each column, and writes the 2000 × 128
  result as row block t of the output. At an output entry (r, q) that is max((A (r, q) + H (r, q) · d (r, 0)) + b (0, q), 0):
  the same value the host's expression over the whole arrays has at (r, q). The fifty row blocks tile the 100000 rows, so
  the array the region leaves IS that expression of the arrays the region found, whatever they were.
-/
import proofs.«168582_j32908039422339_1_alg».proof.Proof.Gen.KernelIdeal.Frame
import proofs.«168582_j32908039422339_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.Bridge.Act1

open Cert.KernelIdeal Cert.KernelIdeal.Gen

-- the entry contents of the region: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-! ## The block's arithmetic at an entry -/

/-- The entry of the scale block that entry `j` of the result reads: its row, column 0. -/
abbrev srow (j : S2000x128.Idx) : S2000x1.Idx := fun a => match a with
  | ⟨0, _⟩ => ⟨(j 0).val, (j 0).isLt⟩
  | ⟨1, _⟩ => ⟨0, Nat.one_pos⟩
/-- The entry of the bias that entry `j` of the result reads: row 0, its column. -/
abbrev bcol (j : S2000x128.Idx) : S1x128.Idx := fun a => match a with
  | ⟨0, _⟩ => ⟨0, Nat.one_pos⟩
  | ⟨1, _⟩ => ⟨(j 1).val, (j 1).isLt⟩

/-- What one grid point stores, at an entry: the aggregate plus the feature times its row's scale, plus its column's bias,
    clamped below at zero (the three casts of a shape to itself change nothing). -/
theorem pay_apply (x0 x1 : Vec Ideal S2000x128 .f32) (x2 : Vec Ideal S2000x1 .f32) (x3 : Vec Ideal S1x128 .f32) (j : S2000x128.Idx) :
    k1_pay1 (F := Ideal) x0 x1 x2 x3 j
      = FloatOps.maximumf (FloatOps.addf (FloatOps.addf (x0 j) (FloatOps.mulf (x1 j) (x2 (srow j)))) (x3 (bcol j)))
          (FloatOps.ofBits (F := Ideal) .f32 0x00000000#32) := by
  unfold k1_pay1
  simp only [shapeCast_self]
  show FloatOps.maximumf (FloatOps.addf (FloatOps.addf (x0 j) (FloatOps.mulf (x1 j) (broadcastTo S2000x128 x2 broadcasts_S2000x1_S2000x128 j)))
      (broadcastTo S2000x128 x3 broadcasts_S1x128_S2000x128 j)) (FloatOps.ofBits (F := Ideal) .f32 0x00000000#32) = _
  rw [broadcastTo_apply x2 broadcasts_S2000x1_S2000x128 j (srow j) (fun a => match a with
      | ⟨0, _⟩ => by show (j 0).val = if (2000 : Nat) = 1 then 0 else (j 0).val; rw [if_neg (by decide)]
      | ⟨1, _⟩ => by show 0 = if (1 : Nat) = 1 then 0 else (j 1).val; rw [if_pos rfl]),
    broadcastTo_apply x3 broadcasts_S1x128_S2000x128 j (bcol j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]

/-! ## The host's expression, and the blocks as its rows -/

/-- The activation of the four whole arrays, as the host states it. -/
abbrev act (agg h : FVec Ideal S100000x128 .f32) (dq : FVec Ideal S100000x1 .f32) (b : FVec Ideal S1x128 .f32) : FVec Ideal S100000x128 .f32 :=
  maximumf (addf (addf agg (mulf h (broadcastInDim Cert.ReferenceIdeal.S100000x128 ![0, 1] Cert.ReferenceIdeal.Gen.bcast_S100000x1_S100000x128_0_1 dq)))
      (broadcastInDim Cert.ReferenceIdeal.S100000x128 ![0, 1] Cert.ReferenceIdeal.Gen.bcast_S1x128_S100000x128_0_1 b))
    (broadcastInDim Cert.ReferenceIdeal.S100000x128 ![] Cert.ReferenceIdeal.Gen.bcast_S_S100000x128 (constant (F := Ideal) Cert.ReferenceIdeal.S_ .f32 0x00000000#32))

/-- The entry of the scale array that entry `i` of the result reads: its row, column 0. -/
abbrev srowA (i : S100000x128.Idx) : S100000x1.Idx := fun a => match a with
  | ⟨0, _⟩ => ⟨(i 0).val, (i 0).isLt⟩
  | ⟨1, _⟩ => ⟨0, Nat.one_pos⟩
/-- The entry of the bias that entry `i` of the result reads: row 0, its column. -/
abbrev bcolA (i : S100000x128.Idx) : S1x128.Idx := fun a => match a with
  | ⟨0, _⟩ => ⟨0, Nat.one_pos⟩
  | ⟨1, _⟩ => ⟨(i 1).val, (i 1).isLt⟩

/-- At an entry it is the same arithmetic on the entries of the whole arrays. -/
theorem act_apply (agg h : FVec Ideal S100000x128 .f32) (dq : FVec Ideal S100000x1 .f32) (b : FVec Ideal S1x128 .f32) (i : S100000x128.Idx) :
    act agg h dq b i
      = FloatOps.maximumf (FloatOps.addf (FloatOps.addf (agg i) (FloatOps.mulf (h i) (dq (srowA i)))) (b (bcolA i)))
          (FloatOps.ofBits (F := Ideal) .f32 0x00000000#32) := by
  show FloatOps.maximumf (FloatOps.addf (FloatOps.addf (agg i) (FloatOps.mulf (h i)
        (broadcastInDim Cert.ReferenceIdeal.S100000x128 ![0, 1] Cert.ReferenceIdeal.Gen.bcast_S100000x1_S100000x128_0_1 dq i)))
      (broadcastInDim Cert.ReferenceIdeal.S100000x128 ![0, 1] Cert.ReferenceIdeal.Gen.bcast_S1x128_S100000x128_0_1 b i))
      (FloatOps.ofBits (F := Ideal) .f32 0x00000000#32) = _
  rw [broadcastInDim_apply _ Cert.ReferenceIdeal.Gen.bcast_S100000x1_S100000x128_0_1 dq i (srowA i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x128_S100000x128_0_1 b i (bcolA i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- The printed index maps over the grid: the aggregate's, the features', the scale's and the output's blocks are row block
    `t`, the bias's is the whole array at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is row block `t` of the activation of the arrays the region found. -/
theorem flushed_eq (c : Dev nD) (t : Fin cfg1.N) :
    (dat1 V c).flushed 4 t
      = ((cfg1.win 4).blk t).view.read (Elt Ideal) (act (V c main_v44) (V c main_v32) (V c main_v15) (V c main_v45)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨e00, e01, e10, e11, e20, e21, e30, e31, e40, e41⟩ := idx_facts t
  funext j
  show k1_pay1 (F := Ideal) (iblk1 V c 0 t) (iblk1 V c 1 t) (iblk1 V c 2 t) (iblk1 V c 3 t) j
    = act (V c main_v44) (V c main_v32) (V c main_v15) (V c main_v45) (((cfg1.win 4).blk t).view.emb j)
  refine (pay_apply (iblk1 V c 0 t) (iblk1 V c 1 t) (iblk1 V c 2 t) (iblk1 V c 3 t) j).trans ?_
  refine Eq.trans ?_ (act_apply (V c main_v44) (V c main_v32) (V c main_v15) (V c main_v45) (((cfg1.win 4).blk t).view.emb j)).symm
  have hj0 : (j 0).val < 2000 := (j 0).isLt
  have h0 : iblk1 V c 0 t j = V c main_v44 (((cfg1.win 4).blk t).view.emb j) := by
    show V c main_v44 (((cfg1.win 0).blk t).view.emb j) = _
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h1 : iblk1 V c 1 t j = V c main_v32 (((cfg1.win 4).blk t).view.emb j) := by
    show V c main_v32 (((cfg1.win 1).blk t).view.emb j) = _
    refine congrArg _ (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have h2 : iblk1 V c 2 t (srow j) = V c main_v15 (srowA (((cfg1.win 4).blk t).view.emb j)) := by
    show V c main_v15 (((cfg1.win 2).blk t).view.emb (srow j)) = _
    refine congrArg _ (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have h3 : iblk1 V c 3 t (bcol j) = V c main_v45 (bcolA (((cfg1.win 4).blk t).view.emb j)) := by
    show V c main_v45 (((cfg1.win 3).blk t).view.emb (bcol j)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- Every row block is some point's. -/
theorem idx_onto : ∀ q : Fin 50, ∃ t : Fin cfg1.N, win1_4.index t = ![q.val, 0] :=
  (by decide +kernel : ∀ q : Fin 50, ∃ t : Fin grid1.N, win1_4.index t = ![q.val, 0])

/-- The fifty row blocks cover the array: row `r` is in block `r / 2000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE ARRAY the region leaves: the activation of the four arrays it found. -/
theorem value (c : Dev nD) : (dat1 V c).arrAt 4 cfg1.N = act (V c main_v44) (V c main_v32) (V c main_v15) (V c main_v45) :=
  (dat1 V c).arrAt_eq_of_cover 4 (act (V c main_v44) (V c main_v32) (V c main_v15) (V c main_v45)) (fun t _ => flushed_eq V c t) cover

end Cert.Bridge.Act1

end
-- ==== Proof.Act2.lean ====
/-
  The second layer's activation, read off its pipeline. The region takes four arrays: the aggregate A and the features H
  (both 100000 × 64), the per-row scale d (100000 × 1) and the bias b (1 × 64). Grid point t takes rows
  2000·t … 2000·t + 1999 of A, H and d, and b whole; on the block it forms, entry by entry,
  max((A + H · d) + b, 0), with d repeated along each row and b repeated down each column, and writes the 2000 × 64
  result as row block t of the output. At an output entry (r, q) that is max((A (r, q) + H (r, q) · d (r, 0)) + b (0, q), 0):
  the same value the host's expression over the whole arrays has at (r, q). The fifty row blocks tile the 100000 rows, so
  the array the region leaves IS that expression of the arrays the region found, whatever they were.
-/
import proofs.«168582_j32908039422339_1_alg».proof.Proof.Gen.KernelIdeal.Frame
import proofs.«168582_j32908039422339_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.Bridge.Act2

open Cert.KernelIdeal Cert.KernelIdeal.Gen

-- the entry contents of the region: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-! ## The block's arithmetic at an entry -/

/-- The entry of the scale block that entry `j` of the result reads: its row, column 0. -/
abbrev srow (j : S2000x64.Idx) : S2000x1.Idx := fun a => match a with
  | ⟨0, _⟩ => ⟨(j 0).val, (j 0).isLt⟩
  | ⟨1, _⟩ => ⟨0, Nat.one_pos⟩
/-- The entry of the bias that entry `j` of the result reads: row 0, its column. -/
abbrev bcol (j : S2000x64.Idx) : S1x64.Idx := fun a => match a with
  | ⟨0, _⟩ => ⟨0, Nat.one_pos⟩
  | ⟨1, _⟩ => ⟨(j 1).val, (j 1).isLt⟩

/-- What one grid point stores, at an entry: the aggregate plus the feature times its row's scale, plus its column's bias,
    clamped below at zero (the three casts of a shape to itself change nothing). -/
theorem pay_apply (x0 x1 : Vec Ideal S2000x64 .f32) (x2 : Vec Ideal S2000x1 .f32) (x3 : Vec Ideal S1x64 .f32) (j : S2000x64.Idx) :
    k3_pay1 (F := Ideal) x0 x1 x2 x3 j
      = FloatOps.maximumf (FloatOps.addf (FloatOps.addf (x0 j) (FloatOps.mulf (x1 j) (x2 (srow j)))) (x3 (bcol j)))
          (FloatOps.ofBits (F := Ideal) .f32 0x00000000#32) := by
  unfold k3_pay1
  simp only [shapeCast_self]
  show FloatOps.maximumf (FloatOps.addf (FloatOps.addf (x0 j) (FloatOps.mulf (x1 j) (broadcastTo S2000x64 x2 broadcasts_S2000x1_S2000x64 j)))
      (broadcastTo S2000x64 x3 broadcasts_S1x64_S2000x64 j)) (FloatOps.ofBits (F := Ideal) .f32 0x00000000#32) = _
  rw [broadcastTo_apply x2 broadcasts_S2000x1_S2000x64 j (srow j) (fun a => match a with
      | ⟨0, _⟩ => by show (j 0).val = if (2000 : Nat) = 1 then 0 else (j 0).val; rw [if_neg (by decide)]
      | ⟨1, _⟩ => by show 0 = if (1 : Nat) = 1 then 0 else (j 1).val; rw [if_pos rfl]),
    broadcastTo_apply x3 broadcasts_S1x64_S2000x64 j (bcol j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]

/-! ## The host's expression, and the blocks as its rows -/

/-- The activation of the four whole arrays, as the host states it. -/
abbrev act (agg h : FVec Ideal S100000x64 .f32) (dq : FVec Ideal S100000x1 .f32) (b : FVec Ideal S1x64 .f32) : FVec Ideal S100000x64 .f32 :=
  maximumf (addf (addf agg (mulf h (broadcastInDim Cert.ReferenceIdeal.S100000x64 ![0, 1] Cert.ReferenceIdeal.Gen.bcast_S100000x1_S100000x64_0_1 dq)))
      (broadcastInDim Cert.ReferenceIdeal.S100000x64 ![0, 1] Cert.ReferenceIdeal.Gen.bcast_S1x64_S100000x64_0_1 b))
    (broadcastInDim Cert.ReferenceIdeal.S100000x64 ![] Cert.ReferenceIdeal.Gen.bcast_S_S100000x64 (constant (F := Ideal) Cert.ReferenceIdeal.S_ .f32 0x00000000#32))

/-- The entry of the scale array that entry `i` of the result reads: its row, column 0. -/
abbrev srowA (i : S100000x64.Idx) : S100000x1.Idx := fun a => match a with
  | ⟨0, _⟩ => ⟨(i 0).val, (i 0).isLt⟩
  | ⟨1, _⟩ => ⟨0, Nat.one_pos⟩
/-- The entry of the bias that entry `i` of the result reads: row 0, its column. -/
abbrev bcolA (i : S100000x64.Idx) : S1x64.Idx := fun a => match a with
  | ⟨0, _⟩ => ⟨0, Nat.one_pos⟩
  | ⟨1, _⟩ => ⟨(i 1).val, (i 1).isLt⟩

/-- At an entry it is the same arithmetic on the entries of the whole arrays. -/
theorem act_apply (agg h : FVec Ideal S100000x64 .f32) (dq : FVec Ideal S100000x1 .f32) (b : FVec Ideal S1x64 .f32) (i : S100000x64.Idx) :
    act agg h dq b i
      = FloatOps.maximumf (FloatOps.addf (FloatOps.addf (agg i) (FloatOps.mulf (h i) (dq (srowA i)))) (b (bcolA i)))
          (FloatOps.ofBits (F := Ideal) .f32 0x00000000#32) := by
  show FloatOps.maximumf (FloatOps.addf (FloatOps.addf (agg i) (FloatOps.mulf (h i)
        (broadcastInDim Cert.ReferenceIdeal.S100000x64 ![0, 1] Cert.ReferenceIdeal.Gen.bcast_S100000x1_S100000x64_0_1 dq i)))
      (broadcastInDim Cert.ReferenceIdeal.S100000x64 ![0, 1] Cert.ReferenceIdeal.Gen.bcast_S1x64_S100000x64_0_1 b i))
      (FloatOps.ofBits (F := Ideal) .f32 0x00000000#32) = _
  rw [broadcastInDim_apply _ Cert.ReferenceIdeal.Gen.bcast_S100000x1_S100000x64_0_1 dq i (srowA i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x64_S100000x64_0_1 b i (bcolA i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])]

/-- The printed index maps over the grid: the aggregate's, the features', the scale's and the output's blocks are row block
    `t`, the bias's is the whole array at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is row block `t` of the activation of the arrays the region found. -/
theorem flushed_eq (c : Dev nD) (t : Fin cfg3.N) :
    (dat3 V c).flushed 4 t
      = ((cfg3.win 4).blk t).view.read (Elt Ideal) (act (V c main_v59) (V c main_v47) (V c main_v15) (V c main_v60)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨e00, e01, e10, e11, e20, e21, e30, e31, e40, e41⟩ := idx_facts t
  funext j
  show k3_pay1 (F := Ideal) (iblk3 V c 0 t) (iblk3 V c 1 t) (iblk3 V c 2 t) (iblk3 V c 3 t) j
    = act (V c main_v59) (V c main_v47) (V c main_v15) (V c main_v60) (((cfg3.win 4).blk t).view.emb j)
  refine (pay_apply (iblk3 V c 0 t) (iblk3 V c 1 t) (iblk3 V c 2 t) (iblk3 V c 3 t) j).trans ?_
  refine Eq.trans ?_ (act_apply (V c main_v59) (V c main_v47) (V c main_v15) (V c main_v60) (((cfg3.win 4).blk t).view.emb j)).symm
  have hj0 : (j 0).val < 2000 := (j 0).isLt
  have h0 : iblk3 V c 0 t j = V c main_v59 (((cfg3.win 4).blk t).view.emb j) := by
    show V c main_v59 (((cfg3.win 0).blk t).view.emb j) = _
    refine congrArg _ (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  have h1 : iblk3 V c 1 t j = V c main_v47 (((cfg3.win 4).blk t).view.emb j) := by
    show V c main_v47 (((cfg3.win 1).blk t).view.emb j) = _
    refine congrArg _ (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  have h2 : iblk3 V c 2 t (srow j) = V c main_v15 (srowA (((cfg3.win 4).blk t).view.emb j)) := by
    show V c main_v15 (((cfg3.win 2).blk t).view.emb (srow j)) = _
    refine congrArg _ (funext fun a => Fin.ext ?_)
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have h3 : iblk3 V c 3 t (bcol j) = V c main_v60 (bcolA (((cfg3.win 4).blk t).view.emb j)) := by
    show V c main_v60 (((cfg3.win 3).blk t).view.emb (bcol j)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  rw [h0, h1, h2, h3]

/-- An index of the output array is in point `t`'s block iff each coordinate is in the block's range on its axis. -/
theorem mem_blk (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v61).slice (win3_4.rect t)).set ↔ _
  rw [View.set_slice_whole, Rect.mem_set_unit]
  exact Iff.rfl

/-- Every row block is some point's. -/
theorem idx_onto : ∀ q : Fin 50, ∃ t : Fin cfg3.N, win3_4.index t = ![q.val, 0] :=
  (by decide +kernel : ∀ q : Fin 50, ∃ t : Fin grid3.N, win3_4.index t = ![q.val, 0])

/-- The fifty row blocks cover the array: row `r` is in block `r / 2000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- THE ARRAY the region leaves: the activation of the four arrays it found. -/
theorem value (c : Dev nD) : (dat3 V c).arrAt 4 cfg3.N = act (V c main_v59) (V c main_v47) (V c main_v15) (V c main_v60) :=
  (dat3 V c).arrAt_eq_of_cover 4 (act (V c main_v59) (V c main_v47) (V c main_v15) (V c main_v60)) (fun t _ => flushed_eq V c t) cover

end Cert.Bridge.Act2

end
-- ==== Proof.TraceB.lean ====
/-
  The program's result, region by region, at the extended reals. Each region's output array is the region's value lemma
  at the boundary where the region is entered; the region's inputs there are the preceding results, read by the trace. So,
  going down the program: the first product is the reference's X · W1; its aggregation, the self-loop term h · dis² and the
  bias, clamped at zero, are the reference's first activation; the second product, aggregation and activation likewise;
  and the classifier's product plus its bias row is the reference's result. Every step is the same operations on the same
  operands, so each closes by unfolding the reference's stage names.
-/
import proofs.«168582_j32908039422339_1_alg».proof.Proof.TraceHost
import proofs.«168582_j32908039422339_1_alg».proof.Proof.Dense1
import proofs.«168582_j32908039422339_1_alg».proof.Proof.Dense2
import proofs.«168582_j32908039422339_1_alg».proof.Proof.Dense3
import proofs.«168582_j32908039422339_1_alg».proof.Proof.Act1
import proofs.«168582_j32908039422339_1_alg».proof.Proof.Act2

noncomputable section

open Idealize.ShloMosaic Idealize.ShloMosaic.TcCoe Idealize.SL.Sem Idealize.ShloMosaic.StableHlo

namespace Cert.Bridge.Trace

open Cert.KernelIdeal Cert.KernelIdeal.Gen

variable (m : (ℓ : Loc nD τ sig) → Buf (Elt Ideal) ℓ) (ρ : Dev nD → PrngReg) (c : Dev nD)

/-- After the first region: the first layer's product X · W1. -/
theorem h1_at4 : W4 m ρ c (Proc.devRef .tc main_v32) = Cert.ReferenceIdeal.Read.val_main_v4 (F := Ideal) (m ((c : Thread nD τ).loc main_arg0)) (m ((c : Thread nD τ).loc main_arg2)) := by
  refine (W4_arr m ρ c 2).trans ?_
  refine (Dense1.value (V3 m ρ) c).trans ?_
  show Dense1.prod (W3 m ρ c (Proc.devRef .tc main_arg0)) (W3 m ρ c (Proc.devRef .tc main_arg2)) = _
  rw [arg0_at3 m ρ c, arg2_at3 m ρ c]
  rfl

/-- After the second region: the first layer's activation. -/
theorem a1_at6 : W6 m ρ c (Proc.devRef .tc main_v46) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) := by
  refine (W6_arr m ρ c 4).trans ?_
  refine (Act1.value (V5 m ρ) c).trans ?_
  show Act1.act (W5 m ρ c (Proc.devRef .tc main_v44)) (W5 m ρ c (Proc.devRef .tc main_v32)) (W5 m ρ c (Proc.devRef .tc main_v15)) (W5 m ρ c (Proc.devRef .tc main_v45)) = _
  rw [agg1_at5 m ρ c _ (h1_at4 m ρ c), (h1_at5 m ρ c).trans (h1_at4 m ρ c), disq_at5 m ρ c, bias1_at5 m ρ c]
  rfl

/-- After the third region: the second layer's product. -/
theorem h2_at7 : W7 m ρ c (Proc.devRef .tc main_v47) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Dense2.value (V6 m ρ) c).trans ?_
  show Dense2.prod (W6 m ρ c (Proc.devRef .tc main_v46)) (W6 m ρ c (Proc.devRef .tc main_arg4)) = _
  rw [a1_at6 m ρ c, arg4_at6 m ρ c]
  rfl

/-- After the fourth region: the second layer's activation. -/
theorem a2_at9 : W9 m ρ c (Proc.devRef .tc main_v61) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 4).trans ?_
  refine (Act2.value (V8 m ρ) c).trans ?_
  show Act2.act (W8 m ρ c (Proc.devRef .tc main_v59)) (W8 m ρ c (Proc.devRef .tc main_v47)) (W8 m ρ c (Proc.devRef .tc main_v15)) (W8 m ρ c (Proc.devRef .tc main_v60)) = _
  rw [agg2_at8 m ρ c _ (h2_at7 m ρ c), (h2_at8 m ρ c).trans (h2_at7 m ρ c), disq_at8 m ρ c, bias2_at8 m ρ c]
  rfl

/-- After the last region: the program's result is the reference's result stage of the arguments. -/
theorem out_at11 : W11 m ρ c (Proc.devRef .tc main_v63)
    = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ?_
  refine (Dense3.value (V10 m ρ) c).trans ?_
  show Dense3.affine (W10 m ρ c (Proc.devRef .tc main_v61)) (W10 m ρ c (Proc.devRef .tc main_arg6)) (W10 m ρ c (Proc.devRef .tc main_v62)) = _
  rw [(a2_at10 m ρ c).trans (a2_at9 m ρ c), arg6_at10 m ρ c, bias3_at10 m ρ c]
  rfl

end Cert.Bridge.Trace

end
-- ==== Proof.lean ====
/-
  The certificate of a two-layer graph convolution network: a Pallas implementation (three dense products, two fused
  activations, as five pipelined kernel regions, with the neighbour aggregation left to the host) against its jnp reference.

  Both programs compute, from the node features X, the edge list and the weights,
      H1 = relu(agg(X·W1) + (X·W1)·dis² + b1),   H2 = relu(agg(H1·W2) + (H1·W2)·dis² + b2),   out = H2·Wc + bc,
  where deg = (number of edges into a node) + 1, dis = deg^(-1/2) where deg > 0 and 0 elsewhere, and agg(h) scatter-adds,
  by edge destination, the rows of h gathered by edge source and scaled by dis[src]·dis[dst]. The host operations (degree,
  dis, the gathers and scatter-adds) are the same operations on the same operands in both programs, so they are never
  opened. What differs is only how the dense parts are laid out: the kernel computes each product and each activation row
  block by row block (fifty blocks of 2000 rows), casting the product's operands to bf16, which changes nothing on the
  extended reals; a block product into a zero accumulator is, entry by entry, the sum the host's dot_general states, and the
  row blocks tile the arrays (Dense1, Dense2, Dense3, Act1, Act2). The trace (TraceA, TraceKeep, TraceHost, TraceB) carries these
  through the program's buffers, and the result is the reference's result stage of the same arguments. No law of the
  extended reals beyond that is used, so the finiteness of the inputs is never opened.

  The frames of the two kernel programs are the generated ones; the reference's is its run with the result dropped; no
  rewrite was made by the idealization, so the preservation claim is trivial.
-/
import proofs.«168582_j32908039422339_1_alg».proof.Defs
import proofs.«168582_j32908039422339_1_alg».proof.Proof.Gen.Kernel
import proofs.«168582_j32908039422339_1_alg».proof.Proof.Gen.Kernel.Skeleton
import proofs.«168582_j32908039422339_1_alg».proof.Proof.Gen.Kernel.Launch
import proofs.«168582_j32908039422339_1_alg».proof.Proof.Gen.Kernel.Points
import proofs.«168582_j32908039422339_1_alg».proof.Proof.Gen.Kernel.Frame
import proofs.«168582_j32908039422339_1_alg».proof.Proof.Gen.KernelIdeal
import proofs.«168582_j32908039422339_1_alg».proof.Proof.Gen.KernelIdeal.Skeleton
import proofs.«168582_j32908039422339_1_alg».proof.Proof.Gen.KernelIdeal.Launch
import proofs.«168582_j32908039422339_1_alg».proof.Proof.Gen.KernelIdeal.Points
import proofs.«168582_j32908039422339_1_alg».proof.Proof.Gen.KernelIdeal.Frame
import proofs.«168582_j32908039422339_1_alg».proof.Proof.Gen.ReferenceIdeal
import proofs.«168582_j32908039422339_1_alg».proof.Proof.Gen.Pre_finite_inputs
import proofs.«168582_j32908039422339_1_alg».proof.Proof.RefRun
import proofs.«168582_j32908039422339_1_alg».proof.Proof.RefRead
import proofs.«168582_j32908039422339_1_alg».proof.Proof.RunNamed
import proofs.«168582_j32908039422339_1_alg».proof.Proof.TraceB
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the (agreeing) arguments: the kernel's by the trace through its
    five regions, the reference's by its run. -/
theorem algebraic : Cert.algebraic_KernelIdeal_ReferenceIdeal := by
  intro m ρ m' ρ' _ hagree
  refine ⟨fun c => Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Bridge.Trace.out_at11 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v103_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
